-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x128x128x128 : Shape := ⟨5, ![8, 1, 128, 128, 128]⟩
abbrev S_ : Shape := ⟨0, ![]⟩

class Facts : Prop where
  bcast_S_S8x1x128x128x128 : S_.BroadcastsInDim S8x1x128x128x128 (![] : Fin 0 → Fin S8x1x128x128x128.rank)
  reducesTo_S8x1x128x128x128_S_d0_1_2_3_4 : S8x1x128x128x128.ReducesTo [0, 1, 2, 3, 4] S_
  h_S_ : 0 < S_.numel

variable [Facts]

def fn {F : FTy → Type} [FloatOps F] (main_arg0 : FVec F S8x1x128x128x128 .f32) (main_arg1 : FVec F S8x1x128x128x128 .f32) (main_arg2 : FVec F S8x1x128x128x128 .f32) : IVec S_ 1 :=
  let main_v0 : FVec F S8x1x128x128x128 .f32 := Host.absf main_arg0
  let main_cst : FVec F S_ .f32 := constant S_ .f32 0x7F800000#32
  let main_v1 : FVec F S8x1x128x128x128 .f32 := broadcastInDim S8x1x128x128x128 ![] bcast_S_S8x1x128x128x128 main_cst
  let main_v2 : IVec S8x1x128x128x128 1 := cmpf .olt main_v0 main_v1
  let main_c : IVec S_ 1 := constantI S_ 1 1#1
  let main_v3 : IVec S_ 1 := (fun x v => Host.reduce IntOp.andi x v reducesTo_S8x1x128x128x128_S_d0_1_2_3_4 h_S_) main_v2 main_c
  let main_v4 : FVec F S8x1x128x128x128 .f32 := Host.absf main_arg1
  let main_cst_0 : FVec F S_ .f32 := constant S_ .f32 0x7F800000#32
  let main_v5 : FVec F S8x1x128x128x128 .f32 := broadcastInDim S8x1x128x128x128 ![] bcast_S_S8x1x128x128x128 main_cst_0
  let main_v6 : IVec S8x1x128x128x128 1 := cmpf .olt main_v4 main_v5
  let main_c_1 : IVec S_ 1 := constantI S_ 1 1#1
  let main_v7 : IVec S_ 1 := (fun x v => Host.reduce IntOp.andi x v reducesTo_S8x1x128x128x128_S_d0_1_2_3_4 h_S_) main_v6 main_c_1
  let main_v8 : IVec S_ 1 := andi main_v3 main_v7
  let main_v9 : FVec F S8x1x128x128x128 .f32 := Host.absf main_arg2
  let main_cst_2 : FVec F S_ .f32 := constant S_ .f32 0x7F800000#32
  let main_v10 : FVec F S8x1x128x128x128 .f32 := broadcastInDim S8x1x128x128x128 ![] bcast_S_S8x1x128x128x128 main_cst_2
  let main_v11 : IVec S8x1x128x128x128 1 := cmpf .olt main_v9 main_v10
  let main_c_3 : IVec S_ 1 := constantI S_ 1 1#1
  let main_v12 : IVec S_ 1 := (fun x v => Host.reduce IntOp.andi x v reducesTo_S8x1x128x128x128_S_d0_1_2_3_4 h_S_) main_v11 main_c_3
  let main_v13 : IVec S_ 1 := andi main_v8 main_v12
  main_v13
-- ==== Kernel.lean ====
abbrev S8x1x128x128x128 : Shape := ⟨5, ![8, 1, 128, 128, 128]⟩
abbrev S8x1 : Shape := ⟨2, ![8, 1]⟩
abbrev S8x1x8x128x128 : Shape := ⟨5, ![8, 1, 8, 128, 128]⟩
abbrev S8x8x128x128 : Shape := ⟨4, ![8, 8, 128, 128]⟩
abbrev S8x8x128 : Shape := ⟨3, ![8, 8, 128]⟩
abbrev S8x8 : Shape := ⟨2, ![8, 8]⟩
abbrev S8x8x1 : Shape := ⟨3, ![8, 8, 1]⟩
abbrev S8x1x1 : Shape := ⟨3, ![8, 1, 1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S8x1x128x128x128, .f32⟩
  | .hbm, ⟨1, _⟩ => ⟨S8x1x128x128x128, .f32⟩
  | .hbm, ⟨2, _⟩ => ⟨S8x1x128x128x128, .f32⟩
  | .hbm, ⟨3, _⟩ => ⟨S8x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S8x1x8x128x128, .f32⟩
  | .local _ .vmem, ⟨1, _⟩ => ⟨S8x1x8x128x128, .f32⟩
  | .local _ .vmem, ⟨2, _⟩ => ⟨S8x1x8x128x128, .f32⟩
  | .local _ .vmem, ⟨3, _⟩ => ⟨S8x1x8x128x128, .f32⟩
  | .local _ .vmem, ⟨4, _⟩ => ⟨S8x1x8x128x128, .f32⟩
  | .local _ .vmem, ⟨5, _⟩ => ⟨S8x1x8x128x128, .f32⟩
  | .local _ .vmem, ⟨6, _⟩ => ⟨S8x1, .f32⟩
  | _, _ => ⟨S8x1x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S8x1_S8x1_0_0 : ∀ a, (![0, 0] : Fin 2 → Nat) a + S8x1.size a ≤ S8x1.size a
  h_S8x1 : 0 < S8x1.numel
  inb_S8x1x8x128x128_S8x1x8x128x128_0_0_0_0_0 : ∀ a, (![0, 0, 0, 0, 0] : Fin 5 → Nat) a + S8x1x8x128x128.size a ≤ S8x1x8x128x128.size a
  h_S8x1x8x128x128 : 0 < S8x1x8x128x128.numel
  shapeCasts_S8x1x8x128x128_S8x8x128x128 : S8x1x8x128x128.ShapeCasts S8x8x128x128
  reduces_S8x8x128x128_S8x8x128 : S8x8x128x128.Reduces [2] S8x8x128
  reduces_S8x8x128_S8x8 : S8x8x128.Reduces [2] S8x8
  shapeCasts_S8x8_S8x8x1 : S8x8.ShapeCasts S8x8x1
  reduces_S8x8x1_S8x1 : S8x8x1.Reduces [1] S8x1
  shapeCasts_S8x1_S8x1x1 : S8x1.ShapeCasts S8x1x1
  shapeCasts_S8x1_S8x1 : S8x1.ShapeCasts S8x1
  shapeCasts_S8x1x1_S8x1 : S8x1x1.ShapeCasts S8x1
  reducesTo_S8x1_S_d0_1 : S8x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x8x128x128.size a ≤ S8x1x128x128x128.size a
  hwx0_0 : ∀ i : grid0.Coords, EltTy.bits .f32 = 32 ∨ (Rect.block (s := S8x1x128x128x128) S8x1x8x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x8x128x128.size a ≤ S8x1x128x128x128.size a
  hwx0_1 : ∀ i : grid0.Coords, EltTy.bits .f32 = 32 ∨ (Rect.block (s := S8x1x128x128x128) S8x1x8x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x8x128x128.size a ≤ S8x1x128x128x128.size a
  hwx0_2 : ∀ i : grid0.Coords, EltTy.bits .f32 = 32 ∨ (Rect.block (s := S8x1x128x128x128) S8x1x8x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S8x1.size a
  hwx0_3 : ∀ i : grid0.Coords, EltTy.bits .f32 = 32 ∨ (Rect.block (s := S8x1) S8x1.size (cc0_transform_3 i) (hinb0_3 i)).WholeWords (EltTy.packing .f32)

variable [Facts₀]

abbrev win0_0 : Pipeline.Window sig grid0 :=
  Pipeline.Window.ofSpec (Memref.whole main_arg0) S8x1x8x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1x8x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1x8x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1x128x128x128 : Shape := ⟨5, ![8, 1, 128, 128, 128]⟩
abbrev S8x128x128x128 : Shape := ⟨4, ![8, 128, 128, 128]⟩
abbrev S_ : Shape := ⟨0, ![]⟩
abbrev S8x128x128 : Shape := ⟨3, ![8, 128, 128]⟩

abbrev nBuf : Space → Nat
  | .hbm => 16
  | .vmem => 0
  | .smem => 0
  | _ => 0

abbrev bufTy : (tb : Table) → Fin (tcTables nBuf tb) → BufTy
  | .hbm, ⟨0, _⟩ => ⟨S8x1x128x128x128, .f32⟩
  | .hbm, ⟨1, _⟩ => ⟨S8x1x128x128x128, .f32⟩
  | .hbm, ⟨2, _⟩ => ⟨S8x1x128x128x128, .f32⟩
  | .hbm, ⟨3, _⟩ => ⟨S8x128x128x128, .f32⟩
  | .hbm, ⟨4, _⟩ => ⟨S8x128x128x128, .f32⟩
  | .hbm, ⟨5, _⟩ => ⟨S8x128x128x128, .f32⟩
  | .hbm, ⟨6, _⟩ => ⟨S8x128x128x128, .f32⟩
  | .hbm, ⟨7, _⟩ => ⟨S8x128x128x128, .f32⟩
  | .hbm, ⟨8, _⟩ => ⟨S8x128x128x128, .f32⟩
  | .hbm, ⟨9, _⟩ => ⟨S_, .f32⟩
  | .hbm, ⟨10, _⟩ => ⟨S8x128x128, .f32⟩
  | .hbm, ⟨11, _⟩ => ⟨S8x128x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | _, _ => ⟨S8x1x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  shapeCasts_S8x1x128x128x128_S8x128x128x128 : S8x1x128x128x128.ShapeCasts S8x128x128x128
  reducesTo_S8x128x128x128_S8x128x128_d2 : S8x128x128x128.ReducesTo [2] S8x128x128
  h_S_ : 0 < S_.numel
  reducesTo_S8x128x128_S_d0_1_2 : S8x128x128.ReducesTo [0, 1, 2] S_

variable [Facts₀]

class Facts : Prop extends Facts₀ where

variable [Facts]
-- ==== Proof.SumSpec.lean ====
/-
  The mathematics of the masked-norm mean, with no program in sight.

  For arrays `gt`, `no`, `mk` of shape [8, 1, 128, 128, 128] over the extended reals put
    sqDiff b x y z = (mk · (no − gt))² at (b, 0, x, y, z),
    nrm b x z   = √(∑_y sqDiff b x y z)               (the Euclidean norm along the Y axis),
    total       = ∑ over every (b, x, z) of nrm b x z.
  The mean is `total / 131072`. One program sums `nrm` over the index set of [8, 128, 128] in one go; the other walks
  the X axis in sixteen tiles of eight rows, sums each tile over its rows and over Z, adds the tiles up one after the
  other starting from zero, and only then sums over the batch axis. Addition of extended reals is commutative and
  associative (also at the infinities), so the two groupings agree: `total_eq_tiles`. The chain
  `(…((T 0 + T 1) + T 2)… + T 15)` is the sum of the `T t`: `runSum_last`.
-/
import Idealize.ShloMosaic.Lib.ValueIdx
import Idealize.ShloMosaic.PureOps.Ideal.Laws

noncomputable section

open scoped BigOperators

namespace Cert.MaskedNorm

open Idealize.ShloMosaic Idealize.ShloMosaic.ValueIdx

/-- The arguments' shape [B, 1, X, Y, Z]. -/
abbrev SArg : Shape := ⟨5, ![8, 1, 128, 128, 128]⟩
/-- The norms' shape [B, X, Z]. -/
abbrev SNrm : Shape := ⟨3, ![8, 128, 128]⟩

/-- The masked difference at one voxel, squared. -/
def sqDiff (gt no mk : SArg.Idx → EReal) (b : Fin 8) (x y z : Fin 128) : EReal :=
  (mk (ix5 b (0 : Fin 1) x y z) * (no (ix5 b (0 : Fin 1) x y z) - gt (ix5 b (0 : Fin 1) x y z)))
    * (mk (ix5 b (0 : Fin 1) x y z) * (no (ix5 b (0 : Fin 1) x y z) - gt (ix5 b (0 : Fin 1) x y z)))

/-- The norm of the masked difference along Y, at (b, x, z). -/
def nrm (gt no mk : SArg.Idx → EReal) (b : Fin 8) (x z : Fin 128) : EReal :=
  Ideal.sqrt (∑ y : Fin 128, sqDiff gt no mk b x y z)

/-- The sum of all the norms. -/
def total (gt no mk : SArg.Idx → EReal) : EReal :=
  ∑ j : SNrm.Idx, nrm gt no mk (j 0) (j 1) (j 2)

/-- Row `k` of tile `t` of the X axis: `8t + k`. -/
abbrev rowOf (t : Fin 16) (k : Fin 8) : Fin 128 :=
  ⟨8 * t.val + k.val, by have := t.isLt; have := k.isLt; omega⟩

/-- What tile `t` contributes to batch entry `b`: its eight rows, each summed over Z. -/
def tile (f : Fin 8 → Fin 128 → Fin 128 → EReal) (b : Fin 8) (t : Fin 16) : EReal :=
  ∑ k : Fin 8, ∑ z : Fin 128, f b (rowOf t k) z

/-! ## Sums over index sets, coordinate by coordinate -/

/-- A rank-3 index set is the product of its coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The 128 rows are the sixteen tiles of eight: a sum over the rows is the sum over the tiles of the sums over a
    tile's rows. -/
theorem sum_rows {M : Type*} [AddCommMonoid M] (g : Fin 128 → M) :
    ∑ x : Fin 128, g x = ∑ t : Fin 16, ∑ k : Fin 8, g (rowOf t k) := by
  have e : ∑ x : Fin (16 * 8), g x = ∑ p : Fin 16 × Fin 8, g (finProdFinEquiv p) :=
    (Equiv.sum_comp (finProdFinEquiv (m := 16) (n := 8)) g).symm
  refine e.trans ?_
  rw [Fintype.sum_prod_type]
  refine Finset.sum_congr rfl fun t _ => Finset.sum_congr rfl fun k _ => congrArg g (Fin.ext ?_)
  show k.val + 8 * t.val = 8 * t.val + k.val
  omega

/-- THE REGROUPING: the sum over every (b, x, z) is, batch entry by batch entry, the sum of the sixteen tiles. -/
theorem sum_eq_tiles (f : Fin 8 → Fin 128 → Fin 128 → EReal) :
    ∑ j : SNrm.Idx, f (j 0) (j 1) (j 2) = ∑ b : Fin 8, ∑ t : Fin 16, tile f b t := by
  rw [sum_idx3 (fun j : SNrm.Idx => f (j 0) (j 1) (j 2))]
  refine Finset.sum_congr rfl fun b _ => ?_
  exact sum_rows fun x => ∑ z : Fin 128, f b x z

theorem total_eq_tiles (gt no mk : SArg.Idx → EReal) :
    total gt no mk = ∑ b : Fin 8, ∑ t : Fin 16, tile (nrm gt no mk) b t :=
  sum_eq_tiles (nrm gt no mk)

/-! ## The running sum over the tiles -/

/-- The chain an accumulator walks: the first tile, then each next one added on the right. -/
def runSum (T : Fin 16 → EReal) : (n : ℕ) → n < 16 → EReal
  | 0, h => T ⟨0, h⟩
  | n + 1, h => runSum T n (Nat.lt_of_succ_lt h) + T ⟨n + 1, h⟩

/-- After tile `n` the chain is the sum of the tiles up to `n`. -/
theorem runSum_eq (T : Fin 16 → EReal) :
    ∀ (n : ℕ) (h : n < 16), runSum T n h = ∑ t : Fin (n + 1), T ⟨t.val, Nat.lt_of_lt_of_le t.isLt h⟩
  | 0, h => by
    rw [Fin.sum_univ_succ, Fin.sum_univ_zero, add_zero]
    rfl
  | n + 1, h => by
    rw [runSum, runSum_eq T n (Nat.lt_of_succ_lt h)]
    exact (Fin.sum_univ_castSucc fun t : Fin (n + 2) => T ⟨t.val, Nat.lt_of_lt_of_le t.isLt h⟩).symm

/-- After the last tile it is the sum of them all. -/
theorem runSum_last (T : Fin 16 → EReal) : runSum T 15 (by decide) = ∑ t : Fin 16, T t :=
  runSum_eq T 15 (by decide)

end Cert.MaskedNorm

end
-- ==== Proof.RefValue.lean ====
/-
  The reference's result is the mean of the masked norms.

  The reference drops the unit channel axis of each argument by a reshape — entry (b, x, y, z) of the reshaped array
  is entry (b, 0, x, y, z) of the argument —, forms (mk · (no − gt))², sums it along Y from zero, takes the square
  root, sums every (b, x, z) from zero, and divides by 131072. Read index by index (the generated stage lemmas) that is
  `total / 131072` of the specification, the two zero initial values dropping out.
-/
import proofs.«163549_j8306466751246_1_alg».proof.Proof.Gen.ReferenceIdeal.Read
import proofs.«163549_j8306466751246_1_alg».proof.Proof.SumSpec

noncomputable section

open scoped BigOperators

namespace Cert.ReferenceIdeal.RefValue

open Cert.ReferenceIdeal Cert.ReferenceIdeal.Read Idealize.ShloMosaic Idealize.ShloMosaic.ValueIdx Cert.MaskedNorm

/-- Through the Y-sum's index and the reshape, (b, x, z) and the summation coordinate `y` read the argument at
    (b, 0, x, y, z): the row-major position of (b, x, y, z) in [8, 128, 128, 128] split back over [8, 1, 128, 128, 128]. -/
theorem idx_mask (j : S8x128x128.Idx) (k : Fin 128) :
    idx_main_v0 (idx_main_v6 j k) = ix5 (j 0) (0 : Fin 1) (j 1) k (j 2) := by
  have h0 : (j 0).val < 8 := (j 0).isLt
  have h1 : (j 1).val < 128 := (j 1).isLt
  have h2 : (j 2).val < 128 := (j 2).isLt
  have hk : k.val < 128 := k.isLt
  funext a
  apply Fin.ext
  match a with
  | ⟨0, _⟩ => show ((((j 0).val * 128 + (j 1).val) * 128 + k.val) * 128 + (j 2).val) / 2097152 = (j 0).val; omega
  | ⟨1, _⟩ => rfl
  | ⟨2, _⟩ => show ((((j 0).val * 128 + (j 1).val) * 128 + k.val) * 128 + (j 2).val) / 16384 % 128 = (j 1).val; omega
  | ⟨3, _⟩ => show ((((j 0).val * 128 + (j 1).val) * 128 + k.val) * 128 + (j 2).val) / 128 % 128 = k.val; omega
  | ⟨4, _⟩ => show ((((j 0).val * 128 + (j 1).val) * 128 + k.val) * 128 + (j 2).val) % 128 = (j 2).val; omega

/-- The three reshapes re-index alike. -/
theorem idx_out (j : S8x128x128.Idx) (k : Fin 128) :
    idx_main_v1 (idx_main_v6 j k) = ix5 (j 0) (0 : Fin 1) (j 1) k (j 2) := idx_mask j k
theorem idx_truth (j : S8x128x128.Idx) (k : Fin 128) :
    idx_main_v2 (idx_main_v6 j k) = ix5 (j 0) (0 : Fin 1) (j 1) k (j 2) := idx_mask j k

/-- The norms stage, at (b, x, z), is the specification's norm. -/
theorem norms_apply (x0 x1 x2 : SArg.Idx → EReal) (j : S8x128x128.Idx) :
    val_main_v7 (F := Ideal) x0 x1 x2 j = nrm x0 x1 x2 (j 0) (j 1) (j 2) := by
  rw [val_main_v7_apply, val_main_v6_apply]
  simp only [val_main_v5_apply, val_main_v4_apply, val_main_v3_apply, val_main_v0_apply, val_main_v1_apply,
    val_main_v2_apply, val_main_cst_apply, idx_mask, idx_out, idx_truth, Ideal.hostUnary_sqrt_def, Ideal.mulf_def,
    Ideal.subf_def, Ideal.ofBits_def, Ideal.ofBits_zero_f32, zero_add]
  rfl

/-- The reference's result: the sum of all the norms over 131072. -/
theorem result_eq (x0 x1 x2 : SArg.Idx → EReal) :
    val_main_v9 (F := Ideal) x0 x1 x2 = fun _ => Ideal.div (total x0 x1 x2) (Ideal.ofBits .f32 0x48000000#32) := by
  funext i
  rw [val_main_v9_apply, val_main_v8_apply]
  simp only [norms_apply, val_main_cst_1_apply, val_main_cst_0_apply, Ideal.hostDivf_def, Ideal.ofBits_def,
    Ideal.ofBits_zero_f32, zero_add]
  rfl

end Cert.ReferenceIdeal.RefValue

end
-- ==== Proof.CaseValues.lean ====
/-
  What the accumulator block holds after one grid point, by case, at any float instance.

  At every point the body stores the payload of the three input blocks and of what it loads back from the
  accumulator's buffer. At the first point it has just stored the zero block there, so what it loads back is that zero
  block (`first_point`); at a later point the buffer still holds what the point before left (`later_point`). Each is the
  content of the block's covering stores read back as one value; every load reads a whole buffer at offset zero.
-/
import proofs.«163549_j8306466751246_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

theorem origin2 : (![0, 0] : Fin 2 → Nat) = fun _ => 0 := funext fun a => by fin_cases a <;> rfl
theorem origin5 : (![0, 0, 0, 0, 0] : Fin 5 → Nat) = fun _ => 0 := funext fun a => by fin_cases a <;> rfl

/-- A later point (the reset not taken): the payload of the blocks and of the running contents `xo`. The kernel loads
    the second operand's block first: the payload's operands are (no, gt, mk, acc). -/
theorem later_point (c : Dev nD) (i : grid0.Coords) (a1 : Memref sig .tc .vmem S8x1x8x128x128 .f32) (h1 : a1.IsWhole)
    (a2 : Memref sig .tc .vmem S8x1x8x128x128 .f32) (h2 : a2.IsWhole) (a3 : Memref sig .tc .vmem S8x1x8x128x128 .f32) (h3 : a3.IsWhole)
    (a4 : Memref sig .tc .vmem S8x1 .f32) (h4 : a4.IsWhole) (hc : ¬cond0_0 i)
    (x0 x1 x2 : Vec F S8x1x8x128x128 .f32) (xo : Vec F S8x1 .f32) :
    out0_B_3 c i a1 h1 a2 h2 a3 h3 a4 h4 hc x0 x1 x2 xo = k0_pay2 x1 x0 x2 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero origin2]
  simp only [View.readAt_eq_ld, h1.read_unread, h2.read_unread, h3.read_unread, h4.read_unread,
    View.ld_unit_zero (S := S8x1x8x128x128) origin5, View.ld_unit_zero (S := S8x1) origin2]

/-- The first point (the reset taken): the payload of the blocks and of the zero block just stored. -/
theorem first_point (c : Dev nD) (i : grid0.Coords) (a1 : Memref sig .tc .vmem S8x1x8x128x128 .f32) (h1 : a1.IsWhole)
    (a2 : Memref sig .tc .vmem S8x1x8x128x128 .f32) (h2 : a2.IsWhole) (a3 : Memref sig .tc .vmem S8x1x8x128x128 .f32) (h3 : a3.IsWhole)
    (a4 : Memref sig .tc .vmem S8x1 .f32) (h4 : a4.IsWhole) (hc : cond0_0 i)
    (x0 x1 x2 : Vec F S8x1x8x128x128 .f32) :
    out0_A_3 c i a1 h1 a2 h2 a3 h3 a4 h4 hc x0 x1 x2 = k0_pay2 x1 x0 x2 (k0_pay1 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S8x1) origin2, View.readCov_unit_zero (S := S8x1) _ origin2]
  simp only [View.readAt_eq_ld, h1.read_unread, h2.read_unread, h3.read_unread,
    View.ld_unit_zero (S := S8x1x8x128x128) origin5]

end Cert.KernelIdeal.CaseValues

end
-- ==== Proof.Payload.lean ====
/-
  What one grid point adds to the accumulator, entry by entry, over the extended reals.

  The body's one arithmetic payload takes the three input blocks (each [8, 1, 8, 128, 128]: all batches, one tile of
  eight X rows, all of Y and Z) and the accumulator block [8, 1] as loaded, and yields the accumulator's new contents.
  Read at batch entry `b` it is
      acc b + ∑_{k < 8} ∑_{z < 128} √(∑_{y < 128} (mk · (no − gt))² at (b, 0, k, y, z)):
  the unit-axis shape casts only re-index (the same row-major position), each lane reduction over one axis is the sum
  over that axis's coordinate (its zero accumulator word is the neutral element and leaves no term), the square root
  is taken entry by entry, and the accumulator's own cast and the cast there and back of the tile's sum are
  identities.
-/
import proofs.«163549_j8306466751246_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- Dropping the block's unit channel axis: entry (b, k, y, z) of the cast is entry (b, 0, k, y, z) of the block. -/
theorem dropChannel_apply (v : S8x1x8x128x128.Idx → EReal) (h : S8x1x8x128x128.ShapeCasts S8x8x128x128)
    (b : Fin 8) (k : Fin 8) (y z : Fin 128) :
    shapeCast S8x8x128x128 v h (ix4 b k y z) = v (ix5 b (0 : Fin 1) k y z) :=
  shapeCast_apply v h (ix4 b k y z) (ix5 b (0 : Fin 1) k y z) (by
    rewrite [Shape.rowMajor_val_five, Shape.rowMajor_val_four]
    show (((b.val * 1 + 0) * 8 + k.val) * 128 + y.val) * 128 + z.val = ((b.val * 8 + k.val) * 128 + y.val) * 128 + z.val
    omega)

/-- The sum along Y: at (b, k, z) the sum over `y` of the entries (b, k, y, z). -/
theorem sumY_apply (v : FVec Ideal S8x8x128x128 .f32) (acc : BitVec 32) (h : S8x8x128x128.Reduces [2] S8x8x128)
    (hφ : FKind.Formats .f32) (hacc : acc = FKind.add.neutral .f32 hφ) (b : Fin 8) (k : Fin 8) (z : Fin 128) :
    multiReduction .add [2] S8x8x128 v acc h hφ hacc (ix3 b k z) = ∑ y : Fin 128, v (ix4 b k y z) :=
  (Ideal.multiReduction_add_single v acc h hφ hacc (ix3 b k z)).trans
    (Finset.sum_congr rfl fun y _ => congrArg v (funext fun a => Fin.ext (by
      match a with | ⟨0, _⟩ => rfl | ⟨1, _⟩ => rfl | ⟨2, _⟩ => rfl | ⟨3, _⟩ => rfl)))

/-- The sum along Z: at (b, k) the sum over `z` of the entries (b, k, z). -/
theorem sumZ_apply (v : FVec Ideal S8x8x128 .f32) (acc : BitVec 32) (h : S8x8x128.Reduces [2] S8x8)
    (hφ : FKind.Formats .f32) (hacc : acc = FKind.add.neutral .f32 hφ) (b : Fin 8) (k : Fin 8) :
    multiReduction .add [2] S8x8 v acc h hφ hacc (ix2 b k) = ∑ z : Fin 128, v (ix3 b k z) :=
  (Ideal.multiReduction_add_single v acc h hφ hacc (ix2 b k)).trans
    (Finset.sum_congr rfl fun z _ => congrArg v (funext fun a => Fin.ext (by
      match a with | ⟨0, _⟩ => rfl | ⟨1, _⟩ => rfl | ⟨2, _⟩ => rfl)))

/-- Keeping the reduced Z axis as a unit axis: entry (b, k, 0) of the cast is entry (b, k). -/
theorem keepZ_apply (v : S8x8.Idx → EReal) (h : S8x8.ShapeCasts S8x8x1) (b : Fin 8) (k : Fin 8) :
    shapeCast S8x8x1 v h (ix3 b k (0 : Fin 1)) = v (ix2 b k) :=
  shapeCast_apply v h (ix3 b k (0 : Fin 1)) (ix2 b k) (by
    rewrite [Shape.rowMajor_val_two, Shape.rowMajor_val_three]
    show b.val * 8 + k.val = (b.val * 8 + k.val) * 1 + 0
    omega)

/-- The sum over the tile's rows: at (b, 0) the sum over `k` of the entries (b, k, 0). -/
theorem sumRows_apply (v : FVec Ideal S8x8x1 .f32) (acc : BitVec 32) (h : S8x8x1.Reduces [1] S8x1)
    (hφ : FKind.Formats .f32) (hacc : acc = FKind.add.neutral .f32 hφ) (b : Fin 8) :
    multiReduction .add [1] S8x1 v acc h hφ hacc (ix2 b (0 : Fin 1)) = ∑ k : Fin 8, v (ix3 b k (0 : Fin 1)) :=
  (Ideal.multiReduction_add_single v acc h hφ hacc (ix2 b (0 : Fin 1))).trans
    (Finset.sum_congr rfl fun k _ => congrArg v (funext fun a => Fin.ext (by
      match a with | ⟨0, _⟩ => rfl | ⟨1, _⟩ => rfl | ⟨2, _⟩ => rfl)))

/-- THE PAYLOAD AT A BATCH ENTRY: the accumulator's entry plus the tile's sum of masked norms. -/
theorem pay_apply (v3 v5 v8 : Vec Ideal S8x1x8x128x128 .f32) (v18 : Vec Ideal S8x1 .f32) (b : Fin 8) :
    k0_pay2 (F := Ideal) v3 v5 v8 v18 (ix2 b (0 : Fin 1))
      = v18 (ix2 b (0 : Fin 1)) + ∑ k : Fin 8, ∑ z : Fin 128, Ideal.sqrt (∑ y : Fin 128,
          (v8 (ix5 b (0 : Fin 1) k y z) * (v3 (ix5 b (0 : Fin 1) k y z) - v5 (ix5 b (0 : Fin 1) k y z)))
            * (v8 (ix5 b (0 : Fin 1) k y z) * (v3 (ix5 b (0 : Fin 1) k y z) - v5 (ix5 b (0 : Fin 1) k y z)))) := by
  unfold k0_pay2
  dsimp only
  refine congrArg₂ (· + ·) (congrFun (shapeCast_self v18 _) _) ?_
  refine (congrFun (shapeCast_shapeCast _ _ _) _).trans ?_
  refine (sumRows_apply _ _ _ _ _ b).trans ?_
  refine Finset.sum_congr rfl fun k _ => ?_
  refine (keepZ_apply _ _ b k).trans ?_
  refine (sumZ_apply _ _ _ _ _ b k).trans ?_
  refine Finset.sum_congr rfl fun z _ => ?_
  show Ideal.sqrt _ = _
  refine congrArg Ideal.sqrt ?_
  refine (sumY_apply _ _ _ _ _ b k z).trans ?_
  refine Finset.sum_congr rfl fun y _ => ?_
  have e8 := dropChannel_apply v8 shapeCasts_S8x1x8x128x128_S8x8x128x128 b k y z
  have e3 := dropChannel_apply v3 shapeCasts_S8x1x8x128x128_S8x8x128x128 b k y z
  have e5 := dropChannel_apply v5 shapeCasts_S8x1x8x128x128_S8x8x128x128 b k y z
  show (shapeCast S8x8x128x128 v8 _ (ix4 b k y z) * (shapeCast S8x8x128x128 v3 _ (ix4 b k y z) - shapeCast S8x8x128x128 v5 _ (ix4 b k y z)))
      * (shapeCast S8x8x128x128 v8 _ (ix4 b k y z) * (shapeCast S8x8x128x128 v3 _ (ix4 b k y z) - shapeCast S8x8x128x128 v5 _ (ix4 b k y z))) = _
  rw [e8, e3, e5]

/-- The block the reset stores is zero at every entry. -/
theorem zero_apply (j : S8x1.Idx) : k0_pay1 (F := Ideal) j = 0 := by
  show Ideal.ofBits .f32 0x00000000#32 = 0
  exact Ideal.ofBits_zero_f32

end Cert.KernelIdeal.Payload

end
-- ==== Proof.RunValue.lean ====
/-
  What the kernel program computes, at the extended reals: the mean of the masked norms.

  The region walks the X axis in sixteen tiles. At tile `t` each input's block is the rows 8t … 8t+7 of its array
  (all batches, all of Y and Z): entry (b, 0, k, y, z) of the block is entry (b, 0, 8t + k, y, z) of the array. The
  output block [8, 1] never moves; its buffer is reset to zero at the first tile, and every tile adds to entry `b` the
  sum over its rows and over Z of the masked norms (the payload read at an entry). So after tile `n` entry `b` holds the
  running sum of the tiles 0 … n (induction on the tile), and after the last tile the sum of all sixteen. Only the last
  tile writes the block back, and the block is the whole result array. The lines after the region add the eight batch
  entries from zero and divide by 131072; the tiles of all batch entries regroup to the sum over every (b, x, z).
-/
import proofs.«163549_j8306466751246_1_alg».proof.Proof.CaseValues
import proofs.«163549_j8306466751246_1_alg».proof.Proof.Payload
import proofs.«163549_j8306466751246_1_alg».proof.Proof.SumSpec
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.RunValue

open Cert.KernelIdeal Cert.KernelIdeal.Gen Idealize.ShloMosaic.ValueIdx Cert.MaskedNorm

variable (m : (ℓ : Loc nD τ sig) → Buf (Elt Ideal) ℓ) (ρ : Dev nD → PrngReg)

/-! ## The arrays and the blocks, at their literal types -/

/-- The three argument arrays as the region finds them. -/
abbrev gtArr (c : Dev nD) : SArg.Idx → EReal := V m c main_arg0
abbrev noArr (c : Dev nD) : SArg.Idx → EReal := V m c main_arg1
abbrev mkArr (c : Dev nD) : SArg.Idx → EReal := V m c main_arg2

/-- Their blocks at a grid point. -/
abbrev gtBlk (c : Dev nD) (t : Fin cfg0.N) : Vec Ideal S8x1x8x128x128 .f32 := iblk m c 0 t
abbrev noBlk (c : Dev nD) (t : Fin cfg0.N) : Vec Ideal S8x1x8x128x128 .f32 := iblk m c 1 t
abbrev mkBlk (c : Dev nD) (t : Fin cfg0.N) : Vec Ideal S8x1x8x128x128 .f32 := iblk m c 2 t

/-- A grid point as one of the sixteen tiles. -/
abbrev tileOf (t : Fin cfg0.N) : Fin 16 := t.cast N_0

/-- Where each input's block sits: at block index `t` along X and 0 along every other axis — decided over the grid. -/
theorem blockIndex : ∀ t : Fin cfg0.N,
    (win0_0.index t 0 = 0 ∧ win0_0.index t 1 = 0 ∧ win0_0.index t 2 = t.val ∧ win0_0.index t 3 = 0 ∧ win0_0.index t 4 = 0)
    ∧ (win0_1.index t 0 = 0 ∧ win0_1.index t 1 = 0 ∧ win0_1.index t 2 = t.val ∧ win0_1.index t 3 = 0 ∧ win0_1.index t 4 = 0)
    ∧ (win0_2.index t 0 = 0 ∧ win0_2.index t 1 = 0 ∧ win0_2.index t 2 = t.val ∧ win0_2.index t 3 = 0 ∧ win0_2.index t 4 = 0) :=
  (by decide +kernel : ∀ t : Fin grid0.N, _)

/-- Entry (b, 0, k, y, z) of tile `t`'s block of an argument is entry (b, 0, 8t + k, y, z) of the argument. -/
theorem gtBlk_apply (c : Dev nD) (t : Fin cfg0.N) (b : Fin 8) (k : Fin 8) (y z : Fin 128) :
    gtBlk m c t (ix5 b (0 : Fin 1) k y z) = gtArr m c (ix5 b (0 : Fin 1) (rowOf (tileOf t) k) y z) := by
  have hi := (blockIndex t).1
  show (iblk m c 0 t : Vec Ideal S8x1x8x128x128 .f32) (ix5 b (0 : Fin 1) k y z) = _
  unfold iblk
  rw [View.read_apply]
  show V m c main_arg0 _ = V m c main_arg0 _
  congr 1
  funext a
  apply Fin.ext
  match a with
  | ⟨0, _⟩ => show win0_0.index t 0 * 8 + 1 * b.val = b.val; rw [hi.1]; omega
  | ⟨1, _⟩ => show win0_0.index t 1 * 1 + 1 * 0 = 0; rw [hi.2.1]
  | ⟨2, _⟩ => show win0_0.index t 2 * 8 + 1 * k.val = 8 * t.val + k.val; rw [hi.2.2.1]; omega
  | ⟨3, _⟩ => show win0_0.index t 3 * 128 + 1 * y.val = y.val; rw [hi.2.2.2.1]; omega
  | ⟨4, _⟩ => show win0_0.index t 4 * 128 + 1 * z.val = z.val; rw [hi.2.2.2.2]; omega

theorem noBlk_apply (c : Dev nD) (t : Fin cfg0.N) (b : Fin 8) (k : Fin 8) (y z : Fin 128) :
    noBlk m c t (ix5 b (0 : Fin 1) k y z) = noArr m c (ix5 b (0 : Fin 1) (rowOf (tileOf t) k) y z) := by
  have hi := (blockIndex t).2.1
  show (iblk m c 1 t : Vec Ideal S8x1x8x128x128 .f32) (ix5 b (0 : Fin 1) k y z) = _
  unfold iblk
  rw [View.read_apply]
  show V m c main_arg1 _ = V m c main_arg1 _
  congr 1
  funext a
  apply Fin.ext
  match a with
  | ⟨0, _⟩ => show win0_1.index t 0 * 8 + 1 * b.val = b.val; rw [hi.1]; omega
  | ⟨1, _⟩ => show win0_1.index t 1 * 1 + 1 * 0 = 0; rw [hi.2.1]
  | ⟨2, _⟩ => show win0_1.index t 2 * 8 + 1 * k.val = 8 * t.val + k.val; rw [hi.2.2.1]; omega
  | ⟨3, _⟩ => show win0_1.index t 3 * 128 + 1 * y.val = y.val; rw [hi.2.2.2.1]; omega
  | ⟨4, _⟩ => show win0_1.index t 4 * 128 + 1 * z.val = z.val; rw [hi.2.2.2.2]; omega

theorem mkBlk_apply (c : Dev nD) (t : Fin cfg0.N) (b : Fin 8) (k : Fin 8) (y z : Fin 128) :
    mkBlk m c t (ix5 b (0 : Fin 1) k y z) = mkArr m c (ix5 b (0 : Fin 1) (rowOf (tileOf t) k) y z) := by
  have hi := (blockIndex t).2.2
  show (iblk m c 2 t : Vec Ideal S8x1x8x128x128 .f32) (ix5 b (0 : Fin 1) k y z) = _
  unfold iblk
  rw [View.read_apply]
  show V m c main_arg2 _ = V m c main_arg2 _
  congr 1
  funext a
  apply Fin.ext
  match a with
  | ⟨0, _⟩ => show win0_2.index t 0 * 8 + 1 * b.val = b.val; rw [hi.1]; omega
  | ⟨1, _⟩ => show win0_2.index t 1 * 1 + 1 * 0 = 0; rw [hi.2.1]
  | ⟨2, _⟩ => show win0_2.index t 2 * 8 + 1 * k.val = 8 * t.val + k.val; rw [hi.2.2.1]; omega
  | ⟨3, _⟩ => show win0_2.index t 3 * 128 + 1 * y.val = y.val; rw [hi.2.2.2.1]; omega
  | ⟨4, _⟩ => show win0_2.index t 4 * 128 + 1 * z.val = z.val; rw [hi.2.2.2.2]; omega

/-! ## One point's contribution, and the accumulator after each point -/

/-- What tile `t` adds to batch entry `b`: the specification's tile sum of the masked norms of the arrays. -/
def pointSum (c : Dev nD) (b : Fin 8) (t : Fin 16) : EReal :=
  tile (nrm (gtArr m c) (noArr m c) (mkArr m c)) b t

/-- The payload at point `t` over any running contents `xo`: `xo`'s entry plus the tile's sum. -/
theorem pay_point (c : Dev nD) (t : Fin cfg0.N) (b : Fin 8) (xo : Vec Ideal S8x1 .f32) :
    k0_pay2 (F := Ideal) (noBlk m c t) (gtBlk m c t) (mkBlk m c t) xo (ix2 b (0 : Fin 1))
      = xo (ix2 b (0 : Fin 1)) + pointSum m c b (tileOf t) := by
  refine (Cert.KernelIdeal.Payload.pay_apply (noBlk m c t) (gtBlk m c t) (mkBlk m c t) xo b).trans ?_
  refine congrArg (xo (ix2 b (0 : Fin 1)) + ·) ?_
  unfold pointSum tile nrm sqDiff
  refine Finset.sum_congr rfl fun k _ => Finset.sum_congr rfl fun z _ => congrArg Ideal.sqrt (Finset.sum_congr rfl fun y _ => ?_)
  rw [gtBlk_apply, noBlk_apply, mkBlk_apply]

theorem lt16 {n : ℕ} (h : n < cfg0.N) : n < 16 := lt_of_lt_of_eq h N_0

/-- After point `n` the accumulator's entry `b` is the running sum of the tiles up to `n`: by induction on the point. -/
theorem acc_apply (c : Dev nD) (b : Fin 8) : ∀ (n : ℕ) (h : n < cfg0.N),
    outsAt0 m c n h (ix2 b (0 : Fin 1)) = runSum (pointSum m c b) n (lt16 h)
  | 0, h => by
    rw [outsAt0_A m c ⟨0, h⟩ rfl]
    refine (congrFun (Cert.KernelIdeal.CaseValues.first_point (F := Ideal) c (grid0.coords ⟨0, h⟩) (ms0_0 ⟨0, h⟩) (hs0_0 ⟨0, h⟩)
      (ms0_1 ⟨0, h⟩) (hs0_1 ⟨0, h⟩) (ms0_2 ⟨0, h⟩) (hs0_2 ⟨0, h⟩) (ms0_3 ⟨0, h⟩) (hs0_3 ⟨0, h⟩) ((hcond0_0 ⟨0, h⟩).mpr rfl)
      (gtBlk m c ⟨0, h⟩) (noBlk m c ⟨0, h⟩) (mkBlk m c ⟨0, h⟩)) (ix2 b (0 : Fin 1))).trans ?_
    refine (pay_point m c ⟨0, h⟩ b (k0_pay1 (F := Ideal))).trans ?_
    rw [Cert.KernelIdeal.Payload.zero_apply, zero_add]
    rfl
  | n + 1, h => by
    have hN : cfg0.N = 16 := N_0
    have hB : ¬(⟨n + 1, h⟩ : Fin cfg0.N).val % 16 = 0 := by dsimp only; omega
    rw [outsAt0_B m c ⟨n + 1, h⟩ hB]
    dsimp only
    refine (congrFun (Cert.KernelIdeal.CaseValues.later_point (F := Ideal) c (grid0.coords ⟨n + 1, h⟩) (ms0_0 ⟨n + 1, h⟩) (hs0_0 ⟨n + 1, h⟩)
      (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩)
      (fun hh => hB ((hcond0_0 ⟨n + 1, h⟩).mp hh))
      (gtBlk m c ⟨n + 1, h⟩) (noBlk m c ⟨n + 1, h⟩) (mkBlk m c ⟨n + 1, h⟩) (outsAt0 m c n (Nat.lt_of_succ_lt h))) (ix2 b (0 : Fin 1))).trans ?_
    refine (pay_point m c ⟨n + 1, h⟩ b (outsAt0 m c n (Nat.lt_of_succ_lt h))).trans ?_
    exact congrArg (· + pointSum m c b (tileOf ⟨n + 1, h⟩)) (acc_apply c b n (Nat.lt_of_succ_lt h))

/-- The accumulator after the last point. -/
def accFinal (c : Dev nD) : S8x1.Idx → EReal :=
  outsAt0 m c 15 (by rw [show cfg0.N = 16 from N_0]; decide)

/-- Its entry `b` is the sum of all sixteen tiles. -/
theorem accFinal_apply (c : Dev nD) (b : Fin 8) :
    accFinal m c (ix2 b (0 : Fin 1)) = ∑ t : Fin 16, pointSum m c b t :=
  (acc_apply m c b 15 _).trans (runSum_last _)

/-! ## The write-back and the result array -/

/-- The output's one block sits at block index (0, 0) and is the whole [8, 1] array — at the last point, the one
    point that writes it back. -/
theorem outBlock : (win0_3.index t0_15 0 * win0_3.size 0 = 0 ∧ win0_3.xsize (grid0.coords t0_15) 0 = 8)
    ∧ (win0_3.index t0_15 1 * win0_3.size 1 = 0 ∧ win0_3.xsize (grid0.coords t0_15) 1 = 1) := by decide +kernel

/-- What is written back is the accumulator after the last point, read through the array's one block. -/
theorem flushed_eq (c : Dev nD) (t : Fin cfg0.N) (hf : (cfg0.win 3).flush t = true) :
    (dats m 0 c).flushed 3 t = ((cfg0.win 3).blk t).view.read (Elt Ideal) (accFinal m c) := by
  have hN : cfg0.N = 16 := N_0
  have h15 : t.val = 15 := by have := (flush0_3 t).mp hf; have := t.isLt; omega
  obtain rfl : t = t0_15 := Fin.ext h15
  show (cfg0.win 3).cut (grid0.coords t0_15) ((dats m 0 c).after 3 t0_15) = _
  rw [after0_3]
  have hoff : (fun a => win0_3.index t0_15 a * main_v0.ty.shape.size a) = fun _ => 0 :=
    funext fun a => by fin_cases a <;> decide +kernel
  exact (Memref.read_access_unit_zero (Elt Ideal) main_v0 hoff (fun a => by rw [congrFun hoff a]; simp) (accFinal m c)).symm

/-- So the result array of the region ends holding the accumulator after the last point: that point's block covers it. -/
theorem final (c : Dev nD) : (dats m 0 c).arrAt 3 cfg0.N = accFinal m c :=
  (dats m 0 c).arrAt_eq_of_cover 3 (accFinal m c) (flushed_eq m c) fun i =>
    ⟨t0_15, (flush0_3 t0_15).mpr rfl, by
      show i ∈ ((View.whole main_v0).slice (win0_3.rect t0_15)).set
      rw [View.set_slice_whole, Rect.mem_set_unit]
      have h0 : (i 0 : Nat) < 8 := (i 0).isLt
      have h1 : (i 1 : Nat) < 1 := (i 1).isLt
      intro a
      match a with
      | ⟨0, _⟩ =>
        show win0_3.index t0_15 0 * win0_3.size 0 ≤ (i 0 : Nat)
          ∧ (i 0 : Nat) < win0_3.index t0_15 0 * win0_3.size 0 + win0_3.xsize (grid0.coords t0_15) 0
        rw [outBlock.1.1, outBlock.1.2]; omega
      | ⟨1, _⟩ =>
        show win0_3.index t0_15 1 * win0_3.size 1 ≤ (i 1 : Nat)
          ∧ (i 1 : Nat) < win0_3.index t0_15 1 * win0_3.size 1 + win0_3.xsize (grid0.coords t0_15) 1
        rw [outBlock.2.1, outBlock.2.2]; omega⟩

/-! ## The lines after the region, and the run -/

/-- After the region the host sums the result array from zero and divides by 131072. -/
theorem tail_eq (c : Dev nD) :
    Pipeline.afterTail₀ cfgs (dats m) 0 (V0 m) [hostOps1] c main_v2
      = Host.divf (F := Ideal) (Host.reduceAdd (F := Ideal) (accFinal m c) (constant (F := Ideal) S_ .f32 0x00000000#32)
          reducesTo_S8x1_S_d0_1 h_S_) (constant (F := Ideal) S_ .f32 0x48000000#32) := by
  have e : Pipeline.withArrays (cfgs 0).spec c (V0 m c) (fun w => (dats m 0 c).arrAt w (cfgs 0).N) (Proc.devRef .tc main_v0)
      = accFinal m c :=
    (Pipeline.withArrays_arr spec0 launch0.win.arr_inj c (V0 m c) (fun w => (dats m 0 c).arrAt w cfg0.N) 3).trans (final m c)
  unfold Pipeline.afterTail₀
  show StableHlo.after (hostOps1 (F := Ideal)) _ (Proc.devRef .tc main_v2) = _
  after_results
  rw [e]

/-- The batch entries of the final accumulator add up to the sum of all the masked norms: each entry is its sixteen
    tiles, and the tiles of all the batch entries regroup to the whole index set. -/
theorem sum_acc (c : Dev nD) :
    ∑ j : S8x1.Idx, accFinal m c j = total (gtArr m c) (noArr m c) (mkArr m c) := by
  rw [total_eq_tiles]
  refine (sum_idx2 (n0 := 8) (n1 := 1) fun j => accFinal m c j).trans ?_
  refine Finset.sum_congr rfl fun b _ => ?_
  rw [Fin.sum_univ_succ, Fin.sum_univ_zero, add_zero]
  exact accFinal_apply m c b

/-- The kernel program's result: the sum of all the masked norms over 131072. -/
theorem result_eq (c : Dev nD) :
    Host.divf (F := Ideal) (Host.reduceAdd (F := Ideal) (accFinal m c) (constant (F := Ideal) S_ .f32 0x00000000#32)
        reducesTo_S8x1_S_d0_1 h_S_) (constant (F := Ideal) S_ .f32 0x48000000#32)
      = fun _ => Ideal.div (total (gtArr m c) (noArr m c) (mkArr m c)) (Ideal.ofBits .f32 0x48000000#32) := by
  funext i
  unfold Host.divf Host.reduceAdd
  simp only [Ideal.hostReduceAdd_def, Ideal.hostDivf_def]
  rw [Ideal.hostReduceAdd_total reducesTo_S8x1_S_d0_1 (fun b => b.elim0)]
  show Ideal.div (Ideal.ofBits .f32 0x00000000#32 + ∑ j : S8x1.Idx, accFinal m c j) (Ideal.ofBits .f32 0x48000000#32) = _
  rw [Ideal.ofBits_zero_f32, zero_add, sum_acc]

/-- THE RUN, READ: every weakly fair execution of the kernel program ends with the result at the mean of the masked
    norms of the arguments and the arguments unchanged. -/
theorem run : θ_run defs (onTc (τ := τ) (main (F := Ideal))) ⟨m, fun _ => 0, ρ⟩ fun r => ∀ c : Dev nD,
      r.2.mem ((c.tc : Thread nD τ).loc main_v2)
        = (fun _ => Ideal.div (total (gtArr m c) (noArr m c) (mkArr m c)) (Ideal.ofBits .f32 0x48000000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans ((tail_eq m c).trans (result_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.RunValue

end
-- ==== Proof.lean ====
/-
  The masked-norm mean: a Pallas kernel that tiles the X axis against the plain jnp mean.

  Both programs compute, for arrays `gt`, `no`, `mk` of shape [8, 1, 128, 128, 128],
      (∑ over every (b, x, z) of √(∑_y (mk · (no − gt))² at (b, 0, x, y, z))) / 131072
  over the extended reals. The reference sums the norms in one reduction; the kernel accumulates sixteen tiles of
  eight X rows into an [8, 1] block (reset to zero at the first tile, written back after the last) and sums the eight
  batch entries afterwards. Only the order and grouping of the additions differ, and addition of extended reals is
  commutative and associative, so no finiteness of the inputs is used. Both divide by the same word for 131072.

  frame_Kernel, frame_KernelIdeal: the kernel's frame over the grid, at both instances.
  frame_ReferenceIdeal: the reference's straight-line run with its result dropped.
  preserves: the idealization rewrote nothing.
  algebraic: the kernel program's run read as a value (Proof/RunValue.lean) and the reference's (Proof/RefValue.lean)
  meet at the specification's `total / 131072` (Proof/SumSpec.lean) of arguments that agree.
-/
import proofs.«163549_j8306466751246_1_alg».proof.Defs
import proofs.«163549_j8306466751246_1_alg».proof.Proof.Gen.Kernel
import proofs.«163549_j8306466751246_1_alg».proof.Proof.Gen.Kernel.Frame
import proofs.«163549_j8306466751246_1_alg».proof.Proof.Gen.KernelIdeal
import proofs.«163549_j8306466751246_1_alg».proof.Proof.Gen.KernelIdeal.Frame
import proofs.«163549_j8306466751246_1_alg».proof.Proof.Gen.ReferenceIdeal
import proofs.«163549_j8306466751246_1_alg».proof.Proof.Gen.ReferenceIdeal.Run
import proofs.«163549_j8306466751246_1_alg».proof.Proof.Gen.ReferenceIdeal.Read
import proofs.«163549_j8306466751246_1_alg».proof.Proof.Gen.Pre_finite_inputs
import proofs.«163549_j8306466751246_1_alg».proof.Proof.SumSpec
import proofs.«163549_j8306466751246_1_alg».proof.Proof.RefValue
import proofs.«163549_j8306466751246_1_alg».proof.Proof.RunValue
import Idealize.ShloMosaic.Adequacy
import Idealize.ShloMosaic.Init

noncomputable section

namespace Cert.Proof

open Idealize.ShloMosaic Idealize.ShloMosaic.TcCoe Idealize.SL.Sem Cert.MaskedNorm

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `total / 131072` of the (agreeing) arguments. -/
theorem algebraic : Cert.algebraic_KernelIdeal_ReferenceIdeal := by
  intro m ρ m' ρ' _ hagree
  refine ⟨fun c _ => Ideal.div (total (Cert.KernelIdeal.RunValue.gtArr m c) (Cert.KernelIdeal.RunValue.noArr m c)
      (Cert.KernelIdeal.RunValue.mkArr m c)) (Ideal.ofBits .f32 0x48000000#32), Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v9_eq (F := Ideal) _ _ _).trans ?_
  refine (Cert.ReferenceIdeal.RefValue.result_eq _ _ _).trans ?_
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
